-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x4096.size a
  hwx0_3 : ∀ i : grid0.Coords, EltTy.bits .f32 = 32 ∨ (Rect.block (s := S4096x4096) S512x256.size (cc0_transform_3 i) (hinb0_3 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S4096x16x256 : Shape := ⟨3, ![4096, 16, 256]⟩
abbrev S_ : Shape := ⟨0, ![]⟩
abbrev S4096x16 : Shape := ⟨2, ![4096, 16]⟩
abbrev S4096x16x1 : Shape := ⟨3, ![4096, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x16x256, .f32⟩
  | .hbm, ⟨8, _⟩ => ⟨S_, .f32⟩
  | .hbm, ⟨9, _⟩ => ⟨S4096x16, .f32⟩
  | .hbm, ⟨10, _⟩ => ⟨S4096x16x1, .f32⟩
  | .hbm, ⟨11, _⟩ => ⟨S_, .f32⟩
  | .hbm, ⟨12, _⟩ => ⟨S4096x16x1, .f32⟩
  | .hbm, ⟨13, _⟩ => ⟨S4096x16x1, .f32⟩
  | .hbm, ⟨14, _⟩ => ⟨S4096x16x256, .f32⟩
  | .hbm, ⟨15, _⟩ => ⟨S4096x16x256, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_call0_v0 : Ref sig .tc := ⟨.hbm, 37, rfl⟩
abbrev main_call0_v1 : Ref sig .tc := ⟨.hbm, 38, rfl⟩
abbrev main_v26 : Ref sig .tc := ⟨.hbm, 39, rfl⟩
abbrev main_cst_7 : Ref sig .tc := ⟨.hbm, 40, rfl⟩
abbrev main_call1_v0 : Ref sig .tc := ⟨.hbm, 41, rfl⟩
abbrev main_call1_v1 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x16x256 : S4096x4096.ShapeCasts S4096x16x256
  reducesTo_S4096x16x256_S4096x16_d2 : S4096x16x256.ReducesTo [2] S4096x16
  h_S_ : 0 < S_.numel
  bcast_S4096x16_S4096x16x1_0_1 : S4096x16.BroadcastsInDim S4096x16x1 (![0, 1] : Fin 2 → Fin S4096x16x1.rank)
  bcast_S_S4096x16x1 : S_.BroadcastsInDim S4096x16x1 (![] : Fin 0 → Fin S4096x16x1.rank)
  bcast_S4096x16x1_S4096x16x256_0_1_2 : S4096x16x1.BroadcastsInDim S4096x16x256 (![0, 1, 2] : Fin 3 → Fin S4096x16x256.rank)
  shapeCasts_S4096x16x256_S4096x4096 : S4096x16x256.ShapeCasts S4096x4096
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Cell.lean ====
/-
  One entry of the result, as a function of what it depends on.

  The result at row `r` and column `c` depends on row `r` of `x`, on the 256 rows of `weight` that make up the block
  of 256 output columns holding `c`, and on that block's 256 biases. With `y q = Σ_a x a · w q a + b q` over the
  block's columns `q`, the entry is `gelu (y q − (Σ_q' y q') / 4096)`, where `gelu z = (½ · z) · (1 + th)`,
  `th` the hyperbolic tangent of `s · (z + ((κ · z) · z) · z)` clamped to `1` above `5` and to `−1` below `−5`.
  The constants are kept as the binary words both programs print.
-/
import Idealize.ShloMosaic.PureOps.Ideal
import Idealize.ShloMosaic.Lib.ValueIdx

noncomputable section

namespace Cert.Cell

open Idealize.ShloMosaic Idealize.ShloMosaic.ValueIdx

/-- The affine map on one block of 256 columns: column `q`'s inner product with the row, plus its bias. -/
def affine (xr : Fin 4096 → EReal) (wr : Fin 256 → Fin 4096 → EReal) (br : Fin 256 → EReal) (q : Fin 256) : EReal :=
  (∑ a : Fin 4096, xr a * wr q a) + br q

/-- The block's sum over its 256 columns, divided by 4096 (the divisor is the full row width, not the block's). -/
def blockMean (xr : Fin 4096 → EReal) (wr : Fin 256 → Fin 4096 → EReal) (br : Fin 256 → EReal) : EReal :=
  Ideal.div (∑ q : Fin 256, affine xr wr br q) (Ideal.ofBits .f32 0x45800000#32)

/-- The argument of the hyperbolic tangent: `s · (z + ((κ · z) · z) · z)`. -/
def tanhArg (z : EReal) : EReal :=
  Ideal.ofBits .f32 0x3F4C422A#32 * (z + Ideal.ofBits .f32 0x3D372713#32 * z * z * z)

/-- The hyperbolic tangent clamped to `1` above `5` and to `−1` below `−5`. -/
def clampedTanh (u : EReal) : EReal :=
  Scalar.select (Ideal.cmp .ogt u (Ideal.ofBits .f32 0x40A00000#32)) (Ideal.ofBits .f32 0x3F800000#32)
    (Scalar.select (Ideal.cmp .olt u (Ideal.ofBits .f32 0xC0A00000#32)) (Ideal.ofBits .f32 0xBF800000#32) (Ideal.tanh u))

/-- `(½ · z) · (1 + clampedTanh (tanhArg z))`. -/
def gelu (z : EReal) : EReal :=
  Ideal.ofBits .f32 0x3F000000#32 * z * (Ideal.ofBits .f32 0x3F800000#32 + clampedTanh (tanhArg z))

/-- The result's entry at column `q` of a block: the centred affine value through `gelu`. -/
def cell (xr : Fin 4096 → EReal) (wr : Fin 256 → Fin 4096 → EReal) (br : Fin 256 → EReal) (q : Fin 256) : EReal :=
  gelu (affine xr wr br q - blockMean xr wr br)

/-- `cell` depends on its row, rows, biases and column only through their values. -/
theorem cell_congr {xr xr' : Fin 4096 → EReal} {wr wr' : Fin 256 → Fin 4096 → EReal} {br br' : Fin 256 → EReal} {q q' : Fin 256}
    (hx : ∀ a, xr a = xr' a) (hw : ∀ k a, wr k a = wr' k a) (hb : ∀ k, br k = br' k) (hq : q = q') :
    cell xr wr br q = cell xr' wr' br' q' := by
  have e1 : xr = xr' := funext hx
  have e2 : wr = wr' := funext fun k => funext (hw k)
  have e3 : br = br' := funext hb
  rw [e1, e2, e3, hq]

/-! ## The whole result -/

/-- Column `q` of the block of 256 columns that holds column `c`. -/
def blockCol (c : Fin 4096) (q : Fin 256) : Fin 4096 :=
  ⟨c.val / 256 * 256 + q.val, by have := c.isLt; have := q.isLt; omega⟩

/-- The column of `c` inside its block. -/
def inBlock (c : Fin 4096) : Fin 256 := ⟨c.val % 256, Nat.mod_lt _ (by decide)⟩

/-- A column is the column of its block at its own place in the block: `c = ⌊c / 256⌋ · 256 + c mod 256`. -/
theorem blockCol_inBlock (c : Fin 4096) : blockCol c (inBlock c) = c :=
  Fin.ext (by show c.val / 256 * 256 + c.val % 256 = c.val; omega)

/-- The result at row `r` and column `c`, from the three argument arrays: `cell` of row `r` of `x`, the rows of
    `weight` for the block of columns holding `c`, that block's biases, at `c`'s place in the block. -/
def wholeAt (x w : (⟨2, ![4096, 4096]⟩ : Shape).Idx → EReal) (b : (⟨1, ![4096]⟩ : Shape).Idx → EReal) (r c : Fin 4096) : EReal :=
  cell (fun a => x (ix2 r a)) (fun q a => w (ix2 (blockCol c q) a)) (fun q => b (ix1 (blockCol c q))) (inBlock c)

/-- The result array as ONE function of the argument arrays, index by index. -/
def whole (x w : (⟨2, ![4096, 4096]⟩ : Shape).Idx → EReal) (b : (⟨1, ![4096]⟩ : Shape).Idx → EReal) :
    (⟨2, ![4096, 4096]⟩ : Shape).Idx → EReal :=
  fun i => wholeAt x w b ⟨(i 0).val, idx2_lt0 i⟩ ⟨(i 1).val, idx2_lt1 i⟩

theorem whole_ix2 (x w : (⟨2, ![4096, 4096]⟩ : Shape).Idx → EReal) (b : (⟨1, ![4096]⟩ : Shape).Idx → EReal) (r c : Fin 4096) :
    whole x w b (ix2 r c) = wholeAt x w b r c := rfl

end Cert.Cell

end
-- ==== Proof.LibColumn.lean ====
/-
  A column of per-row numbers, laid out.

  A vector `[a]` holding one number per row becomes a column `[a, 1]`: the column's entry at `(p, 0)` is the
  vector's entry at `p`. A column `[a, 1]` spread over `b` columns reads, at `(p, c)`, row `p`'s number whatever
  the column `c`. These are the two layout steps of a sum along rows that keeps its axis.
-/
import Idealize.ShloMosaic.Lib.ValueIdx
import Idealize.ShloMosaic.Lib.Pipeline.Value

noncomputable section

namespace Cert.Lib.Column

open Idealize.ShloMosaic Idealize.ShloMosaic.ValueIdx

variable {α : Type}

/-- An `[a]` array cast to `[a, 1]` reads, at `(p, u)`, the operand at `p`, whatever the unit coordinate `u`:
    both have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column

end
-- ==== Proof.LibDotNT.lean ====
/-
  A matrix product against a transposed right operand, at the ideal instance, read at an entry.

  For two rank-2 operands of shapes [M, K] and [N, K] whose dimension numbers contract the second axis of BOTH
  (the right operand is stored row by row, one row per output column), the product into a zero accumulator is, at
  row `p` and column `j`, the plain sum over `a : Fin K` of `l (p, a) * r (j, a)` on the extended reals. The
  dimension numbers enter only through four coordinate facts (which coordinate of each operand is the output's and
  which is the contracted one); a caller proves those four for its own record and gets the sum.
-/
import Idealize.ShloMosaic.Lib.ValueIdx
import Idealize.ShloMosaic.PureOps.Ideal.Laws

noncomputable section

namespace Cert.Lib.DotNT

open Idealize.ShloMosaic Idealize.ShloMosaic.ValueIdx

/-- The contraction sum of a rank-2 by rank-2 product with both second axes contracted, re-indexed from the
    record's one-axis contraction index to `Fin K`: the left operand is read along its row `p`, the right operand
    along its row `j`. -/
theorem contraction_rows {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- A kernel's matrix product into the zero accumulator, both second axes contracted, at the ideal instance, read at
    `(p, j)`. -/
theorem matmul_zero_rows {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_rows D hr hs hl0 hl1 hr0 hr1 l r p j

end Cert.Lib.DotNT

end
-- ==== Proof.KernelEntry.lean ====
/-
  What the kernel body stores, entry by entry.

  At a grid point the body holds a 512 × 4096 block of `x`, a 256 × 4096 block of `weight` (the rows of the block's
  256 output columns) and the 1 × 256 block of biases. Its one store writes, at row `p` and column `q` of the
  512 × 256 output block, `Cell.cell` of row `p` of the `x` block, the `weight` block's rows and the biases:
  the product contracts the second axis of both blocks (the narrowing of both to bf16 is the identity on the
  extended reals), the lane sum runs over the block's 256 columns, and the rest is pointwise.
-/
import proofs.«146840_j3556232921881_1_alg».proof.Proof.Gen.KernelIdeal.Skeleton
import proofs.«146840_j3556232921881_1_alg».proof.Proof.LibColumn
import proofs.«146840_j3556232921881_1_alg».proof.Proof.LibDotNT
import proofs.«146840_j3556232921881_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Facts₀ Idealize.ShloMosaic Idealize.ShloMosaic.ValueIdx

/-! ## The product's dimension numbers, coordinate by coordinate -/

/-- The left operand's row is the output's row. -/
theorem lhs_row (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl
/-- The left operand's column is the contracted coordinate. -/
theorem lhs_col (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q
/-- The right operand's row is the output's column. -/
theorem rhs_row (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl
/-- The right operand's column is the contracted coordinate. -/
theorem rhs_col (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-- The block product at `(p, q)`: row `p` of the left block against row `q` of the right block. -/
theorem prod_apply (l : FVec Ideal S512x4096 .bf16) (r : FVec Ideal S256x4096 .bf16) (p : Fin 512) (q : Fin 256) :
    matmul dot_S512x4096_S256x4096_S512x256_1_1_0_0_n_n none l r (constant (F := Ideal) S512x256 .f32 0x00000000#32) (ix2 p q)
      = ∑ a : Fin 4096, l (ix2 p a) * r (ix2 q a) :=
  Cert.Lib.DotNT.matmul_zero_rows dot_S512x4096_S256x4096_S512x256_1_1_0_0_n_n none rfl rfl lhs_row lhs_col rhs_row rhs_col l r p q

/-! ## The affine block -/

/-- The block of affine values the body forms first: the product plus the biases laid along every row. -/
def affineV (v0 : Vec Ideal S512x4096 .f32) (v2 : Vec Ideal S256x4096 .f32) (v5 : Vec Ideal S1x256 .f32) : FVec Ideal S512x256 .f32 :=
  addf (matmul dot_S512x4096_S256x4096_S512x256_1_1_0_0_n_n none (truncf .bf16 v0 bitsLt_bf16_f32) (truncf .bf16 v2 bitsLt_bf16_f32) (constant S512x256 .f32 0x00000000#32))
    (broadcastTo S512x256 (shapeCast S1x256 v5 shapeCasts_S1x256_S1x256) broadcasts_S1x256_S512x256)

/-- At `(p, q)` it is column `q`'s inner product with row `p`, plus column `q`'s bias. -/
theorem affineV_apply (v0 : Vec Ideal S512x4096 .f32) (v2 : Vec Ideal S256x4096 .f32) (v5 : Vec Ideal S1x256 .f32) (p : Fin 512) (q : Fin 256) :
    affineV v0 v2 v5 (ix2 p q)
      = Cert.Cell.affine (fun a => v0 (ix2 p a)) (fun q' a => v2 (ix2 q' a)) (fun q' => v5 (ix2 (0 : Fin 1) q')) q := by
  show matmul dot_S512x4096_S256x4096_S512x256_1_1_0_0_n_n none (truncf .bf16 v0 bitsLt_bf16_f32) (truncf .bf16 v2 bitsLt_bf16_f32) (constant (F := Ideal) S512x256 .f32 0x00000000#32) (ix2 p q)
      + broadcastTo S512x256 (shapeCast S1x256 v5 shapeCasts_S1x256_S1x256) broadcasts_S1x256_S512x256 (ix2 p q) = _
  rw [prod_apply, broadcastTo_1b_ab_apply, shapeCast_self]
  rfl

/-! ## The lane sum and the rest of the body -/

/-- The sum along a row of the 512 × 256 block, read at row `p`: the sum over the block's 256 columns. -/
theorem rowSum_apply (y : FVec Ideal S512x256 .f32) (p : Fin 512) :
    multiReduction .add [1] S512 y 0x00000000#32 reduces_S512x256_S512 (.inl rfl) rfl (ix1 p) = ∑ k : Fin 256, y (ix2 p k) := by
  refine (Ideal.multiReduction_add_single y 0x00000000#32 reduces_S512x256_S512 (.inl rfl) rfl (ix1 p)).trans ?_
  refine Finset.sum_congr rfl fun k _ => congrArg y (funext fun c => Fin.ext ?_)
  match c with
  | ⟨0, _⟩ => rfl
  | ⟨1, _⟩ => rfl

/-- The row's sum divided by 4096, laid along the row: what the body subtracts from every entry of the row. -/
def meanV (y : FVec Ideal S512x256 .f32) : FVec Ideal S512x256 .f32 :=
  broadcastTo S512x256
    (divf (shapeCast S512x1 (multiReduction .add [1] S512 y 0x00000000#32 reduces_S512x256_S512 (.inl rfl) rfl) shapeCasts_S512_S512x1)
      (broadcast S512x1 (Scalar.ofBits .f32 0x45800000#32)))
    broadcasts_S512x1_S512x256

theorem meanV_apply (y : FVec Ideal S512x256 .f32) (p : Fin 512) (q : Fin 256) :
    meanV y (ix2 p q) = Ideal.div (∑ k : Fin 256, y (ix2 p k)) (Ideal.ofBits .f32 0x45800000#32) := by
  unfold meanV
  refine (Cert.Lib.Column.broadcastTo_a1_ab_apply _ broadcasts_S512x1_S512x256 p q).trans ?_
  show Ideal.div (shapeCast S512x1 (multiReduction .add [1] S512 y 0x00000000#32 reduces_S512x256_S512 (.inl rfl) rfl) shapeCasts_S512_S512x1 (ix2 p (0 : Fin 1))) (Ideal.ofBits .f32 0x45800000#32) = _
  rw [Cert.Lib.Column.shapeCast_a_a1_apply, rowSum_apply]

/-- The body's payload is the pointwise tail of the centred affine block. -/
theorem pay_eq (v0 : Vec Ideal S512x4096 .f32) (v2 : Vec Ideal S256x4096 .f32) (v5 : Vec Ideal S1x256 .f32) (i : S512x256.Idx) :
    Gen.k0_pay1 (F := Ideal) v0 v2 v5 i = Cert.Cell.gelu (affineV v0 v2 v5 i - meanV (affineV v0 v2 v5) i) := rfl

/-- THE ENTRY: at `(p, q)` the body stores `Cell.cell` of row `p` of the `x` block, the `weight` block and the biases. -/
theorem pay_apply (v0 : Vec Ideal S512x4096 .f32) (v2 : Vec Ideal S256x4096 .f32) (v5 : Vec Ideal S1x256 .f32) (p : Fin 512) (q : Fin 256) :
    Gen.k0_pay1 (F := Ideal) v0 v2 v5 (ix2 p q)
      = Cert.Cell.cell (fun a => v0 (ix2 p a)) (fun q' a => v2 (ix2 q' a)) (fun q' => v5 (ix2 (0 : Fin 1) q')) q := by
  rw [pay_eq, meanV_apply]
  simp only [affineV_apply]
  rfl

end Cert.KernelIdeal.Entry

end
-- ==== Proof.KernelValue.lean ====
/-
  The kernel's result array is the whole-array function.

  The grid has 8 × 16 points; point `(I, J)` holds rows `I · 512 …` of `x`, rows `J · 256 …` of `weight`, biases
  `J · 256 …`, and writes back the 512 × 256 block of the result at rows `I · 512 …`, columns `J · 256 …`. What it
  writes at `(p, q)` of the block is `Cell.cell` of its blocks (the body's entry), and that is `Cell.whole` of the
  argument arrays at `(I · 512 + p, J · 256 + q)`: the block of 256 columns holding column `J · 256 + q` is block `J`,
  and `q` is the column's place in it. The 128 blocks tile the 4096 × 4096 array, so the array ends at `Cell.whole`.
  The biases reach the region as one row, the host's reshape of the bias vector.
-/
import proofs.«146840_j3556232921881_1_alg».proof.Proof.Gen.KernelIdeal.Value
import proofs.«146840_j3556232921881_1_alg».proof.Proof.KernelEntry
import proofs.«146840_j3556232921881_1_alg».proof.Proof.Cell
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array as a function of the three argument arrays as launched. -/
abbrev result (c : Dev nD) : S4096x4096.Idx → EReal :=
  Cert.Cell.whole (m ((c : Thread nD τ).loc main_arg0)) (m ((c : Thread nD τ).loc main_arg1)) (m ((c : Thread nD τ).loc main_arg2))

/-- The one row of biases the region finds: the host's reshape of the bias vector. -/
theorem biasRow_eq (c : Dev nD) :
    (V m c main_v0 : S1x4096.Idx → EReal) = shapeCast S1x4096 (m ((c : Thread nD τ).loc main_arg2)) shapeCasts_S4096_S1x4096 := by
  dsimp only [Gen.V, Gen.hostOps0]; after_results; rfl

/-- The printed index maps, decided over the 128 grid points: the `x` block moves with the output's row block, the
    `weight` and bias blocks with the output's column block, and the output's block indices fill 8 × 16. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 8 ∧ win0_3.index t (1 : Fin 2) < 16 :=
  (by decide +kernel : ∀ t : Fin grid0.N, _)

/-- Every block of the 8 × 16 tiling is some point's. -/
theorem idx_onto : ∀ (q0 : Fin 8) (q1 : Fin 16), ∃ t : Fin cfg0.N, win0_3.index t = ![q0.val, q1.val] :=
  (by decide +kernel : ∀ (q0 : Fin 8) (q1 : Fin 16), ∃ t : Fin grid0.N, win0_3.index t = ![q0.val, q1.val])

/-- WHAT POINT `t` WRITES BACK is block `t` of the whole-array function of the arguments. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero origin]
  simp only [View.ld_unit_zero (S := S512x4096) origin, View.ld_unit_zero (S := S256x4096) origin, View.ld_unit_zero (S := S1x256) origin]
  obtain ⟨e0, e1, e2, e3, e4, e5, e6, e7⟩ := idx_facts t
  funext j
  obtain ⟨p, q, rfl⟩ : ∃ (p : Fin 512) (q : Fin 256), j = ix2 p q := ⟨j 0, j 1, eq_ix2 j⟩
  have hp := p.isLt; have hq := q.isLt
  show k0_pay1 (F := Ideal) (iblk m c 0 t) (iblk m c 1 t) (iblk m c 2 t) (ix2 p q)
    = Cert.Cell.whole (m ((c : Thread nD τ).loc main_arg0)) (m ((c : Thread nD τ).loc main_arg1)) (m ((c : Thread nD τ).loc main_arg2)) (((cfg0.win 3).blk t).view.emb (ix2 p q))
  refine (Cert.KernelIdeal.Entry.pay_apply (iblk m c 0 t) (iblk m c 1 t) (iblk m c 2 t) p q).trans ?_
  unfold Cert.Cell.whole Cert.Cell.wholeAt
  refine Cert.Cell.cell_congr (fun a => ?_) (fun k a => ?_) (fun k => ?_) ?_
  · -- row p of the x block is row I·512 + p of x
    show V m c main_arg0 (((cfg0.win 0).blk t).view.emb (ix2 p a)) = _
    rw [V_main_arg0]
    refine congrArg _ (funext fun d => Fin.ext ?_)
    match d with
    | ⟨0, _⟩ => show win0_0.index t (0 : Fin 2) * 512 + 1 * p.val = win0_3.index t (0 : Fin 2) * 512 + 1 * p.val; omega
    | ⟨1, _⟩ => show win0_0.index t (1 : Fin 2) * 4096 + 1 * a.val = a.val; omega
  · -- row k of the weight block is row J·256 + k of weight, the k-th column of the block holding column J·256 + q
    show V m c main_arg1 (((cfg0.win 1).blk t).view.emb (ix2 k a)) = _
    rw [V_main_arg1]
    have hk := k.isLt
    refine congrArg _ (funext fun d => Fin.ext ?_)
    match d with
    | ⟨0, _⟩ => show win0_1.index t (0 : Fin 2) * 256 + 1 * k.val = (win0_3.index t (1 : Fin 2) * 256 + 1 * q.val) / 256 * 256 + k.val; omega
    | ⟨1, _⟩ => show win0_1.index t (1 : Fin 2) * 4096 + 1 * a.val = a.val; omega
  · -- bias k of the block is bias J·256 + k
    show (V m c main_v0 : S1x4096.Idx → EReal) (((cfg0.win 2).blk t).view.emb (ix2 (0 : Fin 1) k)) = _
    rw [biasRow_eq]
    have hk := k.isLt
    have ej : ((cfg0.win 2).blk t).view.emb (ix2 (0 : Fin 1) k)
        = ix2 (0 : Fin 1) (Cert.Cell.blockCol ⟨(((cfg0.win 3).blk t).view.emb (ix2 p q) 1).val, idx2_lt1 _⟩ k) := funext fun d => Fin.ext (by
      match d with
      | ⟨0, _⟩ => show win0_2.index t (0 : Fin 2) * 1 + 1 * 0 = 0; omega
      | ⟨1, _⟩ => show win0_2.index t (1 : Fin 2) * 256 + 1 * k.val = (win0_3.index t (1 : Fin 2) * 256 + 1 * q.val) / 256 * 256 + k.val; omega)
    rw [ej, shapeCast_a_1a_apply]
  · -- q is the column's place in its block
    exact Fin.ext (by show q.val = (win0_3.index t (1 : Fin 2) * 256 + 1 * q.val) % 256; omega)

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S512x256.size a ≤ (i a).val ∧ (i a).val < win0_3.index t a * S512x256.size a + S512x256.size a := by
  show i ∈ ((View.whole main_v1).slice (win0_3.rect t)).set ↔ _
  rw [View.set_slice_whole, Rect.mem_set_unit]
  exact Iff.rfl

/-- The 128 blocks tile the array: index `(r, c)` is in the block of the point with block indices `(⌊r / 512⌋, ⌊c / 256⌋)`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩ ⟨(i 1).val / 256, by omega⟩
  have q0 : win0_3.index t (0 : Fin 2) = (i 0).val / 512 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 256 ≤ (i 1).val ∧ (i 1).val < win0_3.index t (1 : Fin 2) * 256 + 256; omega

/-- THE ARRAY after the run is the whole-array function of the arguments. -/
theorem final (c : Dev nD) : (dats m 0 c).arrAt 3 cfg0.N = result m c :=
  (dats m 0 c).arrAt_eq_of_cover 3 (result m c) (fun t _ => flushed_eq m c t) cover

/-- The run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.RefValue.lean ====
/-
  The reference's result is the whole-array function, index by index.

  The reference forms `y = x · weightᵀ + bias` over the whole 4096 × 4096 array, views each row as 16 blocks of 256
  columns, subtracts from every entry its block's sum divided by 4096, and applies the pointwise tail. Read at row
  `r` and column `c`: the entry of `y` is row `r` of `x` against row `c` of `weight` plus `bias c`; the block of `c`
  is the columns `⌊c / 256⌋ · 256 + k`, `k < 256`; so the entry is `Cell.wholeAt x weight bias r c`. Only the
  row-major arithmetic of the two reshapes (4096 = 16 · 256) is used; no law of the extended reals.
-/
import proofs.«146840_j3556232921881_1_alg».proof.Proof.Gen.ReferenceIdeal.Read
import proofs.«146840_j3556232921881_1_alg».proof.Proof.Cell
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x w : (⟨S4096x4096, .f32⟩ : BufTy).Contents (Elt Ideal)) (b : (⟨S4096, .f32⟩ : BufTy).Contents (Elt Ideal))

/-- The affine array at `(r, c)`: row `r` of `x` against row `c` of `weight`, plus `bias c`. -/
theorem affine_at (r c : Fin 4096) :
    val_main_v3 (F := Ideal) x w b (ix2 r c) = (∑ a : Fin 4096, x (ix2 r a) * w (ix2 c a)) + b (ix1 c) := by
  rw [val_main_v3_apply, val_main_v0_apply, val_main_v2_apply, val_main_v1_apply]
  have el : ∀ k : Fin 4096, lidx_main_v0 (ix2 r c) k = ix2 r k := fun k => funext fun a => Fin.ext (by
    match a with
    | ⟨0, _⟩ => rfl
    | ⟨1, _⟩ => rfl)
  have er : ∀ k : Fin 4096, ridx_main_v0 (ix2 r c) k = ix2 c k := fun k => funext fun a => Fin.ext (by
    match a with
    | ⟨0, _⟩ => rfl
    | ⟨1, _⟩ => rfl)
  have eb : idx_main_v1 (idx_main_v2 (ix2 r c)) = ix1 c := funext fun a => Fin.ext (by
    match a with
    | ⟨0, _⟩ => rfl)
  simp only [el, er, eb]
  rfl

/-- The affine array viewed as 4096 × 16 × 256: block `j`'s column `q` of row `r` is column `j · 256 + q`. -/
theorem blocks_at (r : Fin 4096) (j : Fin 16) (q : Fin 256) :
    val_main_v4 (F := Ideal) x w b (ix3 r j q)
      = val_main_v3 (F := Ideal) x w b (ix2 r ⟨j.val * 256 + q.val, by have := j.isLt; have := q.isLt; omega⟩) := by
  rw [val_main_v4_apply]
  refine congrArg _ (funext fun a => Fin.ext ?_)
  have hr := r.isLt; have hj := j.isLt; have hq := q.isLt
  match a with
  | ⟨0, _⟩ => show ((r.val * 16 + j.val) * 256 + q.val) / 4096 = r.val; omega
  | ⟨1, _⟩ => show ((r.val * 16 + j.val) * 256 + q.val) % 4096 = j.val * 256 + q.val; omega

/-- The sum over a block's 256 columns (the initial value is zero). -/
theorem blockSum_at (r : Fin 4096) (j : Fin 16) :
    val_main_v5 (F := Ideal) x w b (ix2 r j) = ∑ k : Fin 256, val_main_v4 (F := Ideal) x w b (ix3 r j k) := by
  rw [val_main_v5_apply, val_main_cst_apply]
  show Ideal.ofBits .f32 0x00000000#32 + _ = _
  rw [Ideal.ofBits_zero_f32, zero_add]
  refine Finset.sum_congr rfl fun k _ => congrArg _ (funext fun a => Fin.ext ?_)
  match a with
  | ⟨0, _⟩ => rfl
  | ⟨1, _⟩ => rfl
  | ⟨2, _⟩ => rfl

/-- The centred array at `(r, c)`: the affine entry minus its block's sum over 4096. -/
theorem centred_at (r c : Fin 4096) :
    val_main_v11 (F := Ideal) x w b (ix2 r c)
      = val_main_v3 (F := Ideal) x w b (ix2 r c)
        - Ideal.div (∑ k : Fin 256, val_main_v3 (F := Ideal) x w b (ix2 r (Cert.Cell.blockCol c k))) (Ideal.ofBits .f32 0x45800000#32) := by
  have hc := c.isLt; have hr := r.isLt
  have e11 : idx_main_v11 (ix2 r c) = ix3 r (⟨c.val / 256, by omega⟩ : Fin 16) (Cert.Cell.inBlock c) := funext fun a => Fin.ext (by
    match a with
    | ⟨0, _⟩ => show (r.val * 4096 + c.val) / 4096 = r.val; omega
    | ⟨1, _⟩ => show (r.val * 4096 + c.val) / 256 % 16 = c.val / 256; omega
    | ⟨2, _⟩ => show (r.val * 4096 + c.val) % 256 = c.val % 256; omega)
  rw [val_main_v11_apply, e11, val_main_v10_apply, val_main_v9_apply, val_main_v8_apply, val_main_v6_apply, val_main_v7_apply, val_main_cst_0_apply]
  have e6 : idx_main_v6 (idx_main_v9 (ix3 r (⟨c.val / 256, by omega⟩ : Fin 16) (Cert.Cell.inBlock c))) = ix2 r (⟨c.val / 256, by omega⟩ : Fin 16) := funext fun a => Fin.ext (by
    match a with
    | ⟨0, _⟩ => rfl
    | ⟨1, _⟩ => rfl)
  rw [e6, blockSum_at]
  simp only [blocks_at]
  have ec : (⟨c.val / 256 * 256 + (Cert.Cell.inBlock c).val, by have := (Cert.Cell.inBlock c).isLt; omega⟩ : Fin 4096) = c :=
    Fin.ext (by show c.val / 256 * 256 + c.val % 256 = c.val; omega)
  rw [ec]
  rfl

/-- The pointwise tail: the result is `gelu` of the centred array, entry by entry. -/
theorem tail_at (i : S4096x4096.Idx) :
    val_main_v30 (F := Ideal) x w b i = Cert.Cell.gelu (val_main_v11 (F := Ideal) x w b i) := by
  simp only [val_main_v30_apply, val_main_v20_apply, val_main_v19_apply, val_main_cst_3_apply, val_main_v29_apply,
    val_main_v28_apply, val_main_cst_8_apply, val_main_v27_apply, val_main_v22_apply, val_main_v21_apply, val_main_cst_4_apply,
    val_main_call1_v1_apply, val_main_call1_v0_apply, val_main_cst_7_apply, val_main_v26_apply, val_main_v24_apply,
    val_main_v23_apply, val_main_cst_5_apply, val_main_call0_v1_apply, val_main_call0_v0_apply, val_main_cst_6_apply,
    val_main_v25_apply, val_main_v18_apply, val_main_v17_apply, val_main_cst_2_apply, val_main_v16_apply, val_main_v15_apply,
    val_main_v14_apply, val_main_v13_apply, val_main_v12_apply, val_main_cst_1_apply]
  rfl

/-- THE REFERENCE IS THE WHOLE-ARRAY FUNCTION. -/
theorem ref_eq : val_main_v30 (F := Ideal) x w b = Cert.Cell.whole x w b := by
  funext i
  obtain ⟨r, c, rfl⟩ : ∃ (r : Fin 4096) (c : Fin 4096), i = ix2 r c := ⟨i 0, i 1, eq_ix2 i⟩
  rw [tail_at, centred_at, Cert.Cell.whole_ix2]
  simp only [affine_at]
  unfold Cert.Cell.wholeAt Cert.Cell.cell Cert.Cell.blockMean Cert.Cell.affine
  simp only [Cert.Cell.blockCol_inBlock]

end Cert.ReferenceIdeal.RefValue

end
-- ==== Proof.lean ====
/-
  A linear layer followed by a block-centred GELU, tiled, against its whole-array reference.

  Both programs compute, for `x, weight : 4096 × 4096` and `bias : 4096`, the array whose entry at row `r` and
  column `c` is `gelu (y r c − (Σ_{c' in c's block of 256 columns} y r c') / 4096)` with
  `y r c = Σ_a x r a · weight c a + bias c` and `gelu z = (½ · z) · (1 + th)`, `th` the hyperbolic tangent of
  `s · (z + ((κ · z) · z) · z)` clamped to ±1 outside [−5, 5] (`Cell.whole`). The kernel does it on an 8 × 16 grid of
  512 × 256 output blocks, each from a 512 × 4096 block of `x`, the 256 × 4096 block of `weight` rows for its
  columns and their 256 biases; one output block's width is exactly one block of the mean, so the body's lane sum IS
  the block sum. The reference does it on the whole array through a 4096 × 16 × 256 view. On the extended reals the
  two are the same function entry by entry: the narrowing to bf16 before the product is the identity, both products
  are the same sum over `a`, both block sums the same sum over the same 256 columns, and the tail is the same
  operations on the same constants. No algebraic law is used, only the index arithmetic of the tiling, so the
  precondition (finite inputs) is never opened.

  `KernelEntry`: the body's store, entry by entry. `KernelValue`: the 128 blocks tile the array. `RefValue`: the
  reference's result. Here: the frames (the two kernels' generated; the reference's is its run with the result
  dropped), the empty ledger, and the two runs posted at one term.
-/
import proofs.«146840_j3556232921881_1_alg».proof.Defs
import proofs.«146840_j3556232921881_1_alg».proof.Proof.Gen.Kernel
import proofs.«146840_j3556232921881_1_alg».proof.Proof.Gen.Kernel.Skeleton
import proofs.«146840_j3556232921881_1_alg».proof.Proof.Gen.Kernel.Launch
import proofs.«146840_j3556232921881_1_alg».proof.Proof.Gen.Kernel.Points
import proofs.«146840_j3556232921881_1_alg».proof.Proof.Gen.Kernel.Frame
import proofs.«146840_j3556232921881_1_alg».proof.Proof.Gen.KernelIdeal
import proofs.«146840_j3556232921881_1_alg».proof.Proof.Gen.KernelIdeal.Skeleton
import proofs.«146840_j3556232921881_1_alg».proof.Proof.Gen.KernelIdeal.Launch
import proofs.«146840_j3556232921881_1_alg».proof.Proof.Gen.KernelIdeal.Points
import proofs.«146840_j3556232921881_1_alg».proof.Proof.Gen.KernelIdeal.Frame
import proofs.«146840_j3556232921881_1_alg».proof.Proof.Gen.ReferenceIdeal
import proofs.«146840_j3556232921881_1_alg».proof.Proof.Gen.Pre_finite_inputs
import proofs.«146840_j3556232921881_1_alg».proof.Proof.Gen.KernelIdeal.Value
import proofs.«146840_j3556232921881_1_alg».proof.Proof.Gen.ReferenceIdeal.Run
import proofs.«146840_j3556232921881_1_alg».proof.Proof.Gen.ReferenceIdeal.Read
import proofs.«146840_j3556232921881_1_alg».proof.Proof.Cell
import proofs.«146840_j3556232921881_1_alg».proof.Proof.KernelValue
import proofs.«146840_j3556232921881_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- From memories agreeing on the arguments, the kernel's result array (the 128 blocks, `KernelValue`) and the
    reference's (`RefValue`) are both `Cell.whole` of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
